-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S50257x768 : Shape := ⟨2, ![50257, 768]⟩
abbrev S_ : Shape := ⟨0, ![]⟩

class Facts : Prop where
  bcast_S_S50257x768 : S_.BroadcastsInDim S50257x768 (![] : Fin 0 → Fin S50257x768.rank)
  reducesTo_S50257x768_S_d0_1 : S50257x768.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : IVec S4x2048 32) (main_arg1 : FVec F S50257x768 .f32) : IVec S_ 1 :=
  let main_v0 : FVec F S50257x768 .f32 := Host.absf main_arg1
  let main_cst : FVec F S_ .f32 := constant S_ .f32 0x7F800000#32
  let main_v1 : FVec F S50257x768 .f32 := broadcastInDim S50257x768 ![] bcast_S_S50257x768 main_cst
  let main_v2 : IVec S50257x768 1 := cmpf .olt main_v0 main_v1
  let main_c : IVec S_ 1 := constantI S_ 1 1#1
  let main_v3 : IVec S_ 1 := (fun x v => Host.reduce IntOp.andi x v reducesTo_S50257x768_S_d0_1 h_S_) main_v2 main_c
  let main_c_0 : IVec S_ 32 := constantI S_ 32 0#32
  let main_v4 : IVec S4x2048 32 := broadcastInDim S4x2048 ![] bcast_S_S4x2048 main_c_0
  let main_v5 : IVec S4x2048 1 := cmpi .sge main_arg0 main_v4
  let main_c_1 : IVec S_ 32 := constantI S_ 32 50257#32
  let main_v6 : IVec S4x2048 32 := broadcastInDim S4x2048 ![] bcast_S_S4x2048 main_c_1
  let main_v7 : IVec S4x2048 1 := cmpi .slt main_arg0 main_v6
  let main_v8 : IVec S4x2048 1 := andi main_v5 main_v7
  let main_c_2 : IVec S_ 1 := constantI S_ 1 1#1
  let main_v9 : IVec S_ 1 := (fun x v => Host.reduce IntOp.andi x v reducesTo_S4x2048_S_d0_1 h_S_) main_v8 main_c_2
  let main_v10 : IVec S_ 1 := andi main_v3 main_v9
  main_v10
-- ==== Kernel.lean ====
abbrev S4x2048 : Shape := ⟨2, ![4, 2048]⟩
abbrev S50257x768 : Shape := ⟨2, ![50257, 768]⟩
abbrev S8192 : Shape := ⟨1, ![8192]⟩
abbrev S50257x1x768 : Shape := ⟨3, ![50257, 1, 768]⟩
abbrev S8192x1x768 : Shape := ⟨3, ![8192, 1, 768]⟩
abbrev S1x1x768 : Shape := ⟨3, ![1, 1, 768]⟩
abbrev S1 : Shape := ⟨1, ![1]⟩
abbrev S4x2048x768 : Shape := ⟨3, ![4, 2048, 768]⟩

abbrev nBuf : Space → Nat
  | .hbm => 5
  | .vmem => 4
  | .smem => 1
  | _ => 0

abbrev bufTy : (tb : Table) → Fin (tcTables nBuf tb) → BufTy
  | .hbm, ⟨0, _⟩ => ⟨S4x2048, .i32⟩
  | .hbm, ⟨1, _⟩ => ⟨S50257x768, .f32⟩
  | .hbm, ⟨2, _⟩ => ⟨S50257x1x768, .f32⟩
  | .hbm, ⟨3, _⟩ => ⟨S8192x1x768, .f32⟩
  | .hbm, ⟨4, _⟩ => ⟨S4x2048x768, .f32⟩
  | .local _ .vmem, ⟨0, _⟩ => ⟨S1x1x768, .f32⟩
  | .local _ .vmem, ⟨1, _⟩ => ⟨S1x1x768, .f32⟩
  | .local _ .vmem, ⟨2, _⟩ => ⟨S1x1x768, .f32⟩
  | .local _ .vmem, ⟨3, _⟩ => ⟨S1x1x768, .f32⟩
  | .local _ .smem, ⟨0, _⟩ => ⟨S8192, .i32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8192], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x2048_S8192 : S4x2048.ShapeCasts S8192
  shapeCasts_S50257x768_S50257x1x768 : S50257x768.ShapeCasts S50257x1x768
  numel1_S1 : S1.numel = 1
  inb_S1x1x768_S1x1x768_0_0_0 : ∀ a, (![0, 0, 0] : Fin 3 → Nat) a + S1x1x768.size a ≤ S1x1x768.size a
  h_S1x1x768 : 0 < S1x1x768.numel
  shapeCasts_S1x1x768_S1x1x768 : S1x1x768.ShapeCasts S1x1x768
  shapeCasts_S8192x1x768_S4x2048x768 : S8192x1x768.ShapeCasts S4x2048x768
  hrank0 : 0 < grid0.rank
  k0_off1_inb : ∀ i : grid0.Coords, ∀ a, (k0_off1 i) a + S1.size a ≤ S8192.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x768.size a ≤ S8192x1x768.size a
  hwx0_1 : ∀ i : grid0.Coords, EltTy.bits .f32 = 32 ∨ (Rect.block (s := S8192x1x768) S1x1x768.size (cc0_transform_1 i) (hinb0_1 i)).WholeWords (EltTy.packing .f32)

variable [Facts₀]

abbrev spec0_0 : Pipeline.WinSpec sig grid0.rank :=
  Pipeline.WinSpec.ofSpec (Memref.whole main_v1) S1x1x768.size reads0_0 false false 2 stage0_0 sem0_0 nbuf0_0 hstage0_0

abbrev spec0_1 : Pipeline.WinSpec sig grid0.rank :=
  Pipeline.WinSpec.ofSpec (Memref.whole main_v2) S1x1x768.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x768.size a ≤ S50257x1x768.size a), EltTy.bits .f32 = 32 ∨ (Rect.block (s := S50257x1x768) S1x1x768.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S4x2048 : Shape := ⟨2, ![4, 2048]⟩
abbrev S50257x768 : Shape := ⟨2, ![50257, 768]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩
abbrev S4x2048x768 : Shape := ⟨3, ![4, 2048, 768]⟩

abbrev nBuf : Space → Nat
  | .hbm => 25
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S50257x768, .f32⟩
  | .hbm, ⟨2, _⟩ => ⟨S_, .i32⟩
  | .hbm, ⟨3, _⟩ => ⟨S4x2048, .i32⟩
  | .hbm, ⟨4, _⟩ => ⟨S4x2048, .i1⟩
  | .hbm, ⟨5, _⟩ => ⟨S_, .i32⟩
  | .hbm, ⟨6, _⟩ => ⟨S4x2048, .i32⟩
  | .hbm, ⟨7, _⟩ => ⟨S4x2048, .i32⟩
  | .hbm, ⟨8, _⟩ => ⟨S4x2048, .i32⟩
  | .hbm, ⟨9, _⟩ => ⟨S4x2048x1, .i32⟩
  | .hbm, ⟨10, _⟩ => ⟨S1, .i32⟩
  | .hbm, ⟨11, _⟩ => ⟨S_, .i32⟩
  | .hbm, ⟨12, _⟩ => ⟨S4x2048x1, .i32⟩
  | .hbm, ⟨13, _⟩ => ⟨S4x2048x1, .i1⟩
  | .hbm, ⟨14, _⟩ => ⟨S1x1x1, .i32⟩
  | .hbm, ⟨15, _⟩ => ⟨S4x2048x1, .i32⟩
  | .hbm, ⟨16, _⟩ => ⟨S4x2048x1, .i1⟩
  | .hbm, ⟨17, _⟩ => ⟨S4x2048x1, .i1⟩
  | .hbm, ⟨18, _⟩ => ⟨S_, .i1⟩
  | .hbm, ⟨19, _⟩ => ⟨S4x2048, .i1⟩
  | .hbm, ⟨20, _⟩ => ⟨S4x2048x768, .f32⟩
  | .hbm, ⟨21, _⟩ => ⟨S4x2048x768, .i1⟩
  | .hbm, ⟨22, _⟩ => ⟨S_, .f32⟩
  | .hbm, ⟨23, _⟩ => ⟨S4x2048x768, .f32⟩
  | .hbm, ⟨24, _⟩ => ⟨S4x2048x768, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S1_S1x1x1_2 : S1.BroadcastsInDim S1x1x1 (![2] : Fin 1 → Fin S1x1x1.rank)
  bcast_S1x1x1_S4x2048x1_0_1_2 : S1x1x1.BroadcastsInDim S4x2048x1 (![0, 1, 2] : Fin 3 → Fin S4x2048x1.rank)
  reducesTo_S4x2048x1_S4x2048_d2 : S4x2048x1.ReducesTo [2] S4x2048
  h_S_ : 0 < S_.numel
  bcast_S4x2048_S4x2048x768_0_1 : S4x2048.BroadcastsInDim S4x2048x768 (![0, 1] : Fin 2 → Fin S4x2048x768.rank)
  bcast_S_S4x2048x768 : S_.BroadcastsInDim S4x2048x768 (![] : Fin 0 → Fin S4x2048x768.rank)
  gather_S50257x768_S4x2048x1_S4x2048x768_2_0_n_n_0_2_1768_wf : GatherDims.WF S50257x768 S4x2048x1 S4x2048x768 [2] [0] [] [0] [] 2 ![1, 768]

variable [Facts₀]

def gather_S50257x768_S4x2048x1_S4x2048x768_2_0_n_n_0_2_1768 : GatherDims S50257x768 S4x2048x1 S4x2048x768 where
  offsetDims := [2]
  collapsedSliceDims := [0]
  operandBatchingDims := []
  startIndicesBatchingDims := []
  startIndexMap := [0]
  indexVectorDim := 2
  sliceSizes := ![1, 768]
  wf := gather_S50257x768_S4x2048x1_S4x2048x768_2_0_n_n_0_2_1768_wf

class Facts : Prop extends Facts₀ where

variable [Facts]
-- ==== Proof.IndexRange.lean ====
/-
  The index range, read out of the precondition.

  The precondition is the conjunction of two whole-array tests: every table entry is finite, and every index word w
  satisfies 0 ≤ w < 50257 as a signed integer.  Each test is an `and`-reduction over all axes, so the result being one
  forces the tested bit at every position.  A 32-bit word that is non-negative as a signed integer reads the same unsigned,
  hence every index word, read unsigned, is below the number of table rows 50257.
-/
import proofs.«404095_j37864431682597_1_alg».proof.Pre_finite_inputs
import proofs.«404095_j37864431682597_1_alg».proof.Proof.Gen.Pre_finite_inputs
import Idealize.ShloMosaic.Lib.ReduceAll

noncomputable section

namespace Cert.Proof.IndexRange

open Idealize.ShloMosaic

/-- A word in [0, 50257) as a signed integer is below 50257 as an unsigned one. -/
theorem toNat_lt_of_signed (w : BitVec 32) (h0 : IntOp.cmpi .sge w 0#32 = 1#1) (h1 : IntOp.cmpi .slt w 50257#32 = 1#1) :
    w.toNat < 50257 := by
  rw [IntOp.cmpi_sge] at h0
  rw [IntOp.cmpi_slt] at h1
  have e0 : (0#32 : BitVec 32).toInt = 0 := by decide
  have e1 : (50257#32 : BitVec 32).toInt = 50257 := by decide
  rw [e0] at h0
  rw [e1] at h1
  rw [BitVec.toInt_eq_toNat_cond] at h0 h1
  have hw := w.isLt
  split at h0 <;> omega

instance : Subsingleton Cert.Pre_finite_inputs.S_.Idx := ⟨fun a b => funext fun d => d.elim0⟩

/-- Under the precondition every index word is, unsigned, below 50257. -/
theorem word_lt {F : FTy → Type} [FloatOps F] (x : IVec Cert.Pre_finite_inputs.S4x2048 32)
    (e : FVec F Cert.Pre_finite_inputs.S50257x768 .f32)
    (h : Cert.Pre_finite_inputs.fn (F := F) x e = fun _ => 1#1) (i : Cert.Pre_finite_inputs.S4x2048.Idx) :
    (x i).toNat < 50257 := by
  have h0 := congrFun h (fun d => d.elim0)
  dsimp only [Cert.Pre_finite_inputs.fn] at h0
  obtain ⟨-, h2⟩ := IntOp.andi_eq_one.1 h0
  have h3 := Host.reduce_andi_all _ _ _ _ _ h2 i
  obtain ⟨h4, h5⟩ := IntOp.andi_eq_one.1 h3
  exact toNat_lt_of_signed _ h4 h5

end Cert.Proof.IndexRange

end
-- ==== Proof.TableOkIdeal.lean ====
/-
  The launch's side condition on the prefetched index table, for the idealized kernel.

  Grid point i fetches the table row whose number is the i-th word of the flattened index array, as a block of one row.
  That block lies inside the 50257-row table exactly when the word, read unsigned, is below 50257.  The flat table the
  launch reads is the index array re-laid in row-major order, so its words are the index array's words, and a bound on
  every index word is a bound on every table word.
-/
import proofs.«404095_j37864431682597_1_alg».proof.Defs
import proofs.«404095_j37864431682597_1_alg».proof.Proof.Gen.KernelIdeal.Frame
import Idealize.ShloMosaic.Lib.StableHlo.Run

noncomputable section

namespace Cert.KernelIdeal.TableOk

open Cert.KernelIdeal Cert.KernelIdeal.Gen
open Idealize.ShloMosaic Idealize.ShloMosaic.TcCoe Idealize.SL.Sem Idealize.ShloMosaic.StableHlo

variable {F : FTy → Type} [FloatOps F]

/-- Any table contents whose words are all below the number of rows meet the side condition: the block of row
    `word` is rows [word, word + 1) × the whole of the two trailing axes. -/
theorem ok0_of_words (pf : pre0.Contents (Elt F)) (h : ∀ j : S8192.Idx, (pf 0 j : BitVec 32).toNat < 50257) :
    ok0 (F := F) pf := by
  intro i
  refine ⟨fun a => ?_, Or.inl rfl⟩
  match a with
  | ⟨0, _⟩ =>
    have hrow : ∀ j : S8192.Idx, ((pf 0 j : BitVec 32).toNat + 1) * 1 ≤ 50257 := fun j => by have := h j; omega
    exact hrow _
  | ⟨1, _⟩ => show (0 + 1) * 1 ≤ 1; omega
  | ⟨2, _⟩ => show (0 + 1) * 768 ≤ 768; omega

variable (m : (ℓ : Loc nD τ sig) → Buf (Elt F) ℓ)

/-- The flat table the launch reads is the index array re-laid in row-major order. -/
theorem tbl_eq : (tbl m 0 : S8192.Idx → BitVec 32)
    = shapeCast S8192 (m (((0 : Dev nD) : Thread nD τ).loc main_arg0)) Facts₀.shapeCasts_S4x2048_S8192 := by
  unfold tbl
  show StableHlo.after (List.flatten [hostOps0]) (fun b => m ((0 : Dev nD), b)) (Proc.devRef .tc main_v0) = _
  simp only [hostOps0, List.flatten_cons, List.flatten_nil, List.append_nil]
  after_results
  rfl

/-- Index words all below 50257 give the side condition. -/
theorem ok_of_words (h : ∀ i : S4x2048.Idx, (m (((0 : Dev nD) : Thread nD τ).loc main_arg0) i : BitVec 32).toNat < 50257) :
    Ok m := by
  refine ok0_of_words (tbl m) (fun j => ?_)
  rw [tbl_eq]
  unfold shapeCast
  exact h _

end Cert.KernelIdeal.TableOk

end
-- ==== Proof.TableOkBits.lean ====
/-
  The launch's side condition on the prefetched index table, for the kernel as printed.

  Grid point i fetches the table row whose number is the i-th word of the flattened index array, as a block of one row.
  That block lies inside the 50257-row table exactly when the word, read unsigned, is below 50257.  The flat table the
  launch reads is the index array re-laid in row-major order, so its words are the index array's words, and a bound on
  every index word is a bound on every table word.
-/
import proofs.«404095_j37864431682597_1_alg».proof.Defs
import proofs.«404095_j37864431682597_1_alg».proof.Proof.Gen.Kernel.Frame
import Idealize.ShloMosaic.Lib.StableHlo.Run

noncomputable section

namespace Cert.Kernel.TableOk

open Cert.Kernel Cert.Kernel.Gen
open Idealize.ShloMosaic Idealize.ShloMosaic.TcCoe Idealize.SL.Sem Idealize.ShloMosaic.StableHlo

variable {F : FTy → Type} [FloatOps F]

/-- Any table contents whose words are all below the number of rows meet the side condition: the block of row
    `word` is rows [word, word + 1) × the whole of the two trailing axes. -/
theorem ok0_of_words (pf : pre0.Contents (Elt F)) (h : ∀ j : S8192.Idx, (pf 0 j : BitVec 32).toNat < 50257) :
    ok0 (F := F) pf := by
  intro i
  refine ⟨fun a => ?_, Or.inl rfl⟩
  match a with
  | ⟨0, _⟩ =>
    have hrow : ∀ j : S8192.Idx, ((pf 0 j : BitVec 32).toNat + 1) * 1 ≤ 50257 := fun j => by have := h j; omega
    exact hrow _
  | ⟨1, _⟩ => show (0 + 1) * 1 ≤ 1; omega
  | ⟨2, _⟩ => show (0 + 1) * 768 ≤ 768; omega

variable (m : (ℓ : Loc nD τ sig) → Buf (Elt F) ℓ)

/-- The flat table the launch reads is the index array re-laid in row-major order. -/
theorem tbl_eq : (tbl m 0 : S8192.Idx → BitVec 32)
    = shapeCast S8192 (m (((0 : Dev nD) : Thread nD τ).loc main_arg0)) Facts₀.shapeCasts_S4x2048_S8192 := by
  unfold tbl
  show StableHlo.after (List.flatten [hostOps0]) (fun b => m ((0 : Dev nD), b)) (Proc.devRef .tc main_v0) = _
  simp only [hostOps0, List.flatten_cons, List.flatten_nil, List.append_nil]
  after_results
  rfl

/-- Index words all below 50257 give the side condition. -/
theorem ok_of_words (h : ∀ i : S4x2048.Idx, (m (((0 : Dev nD) : Thread nD τ).loc main_arg0) i : BitVec 32).toNat < 50257) :
    Ok m := by
  refine ok0_of_words (tbl m) (fun j => ?_)
  rw [tbl_eq]
  unfold shapeCast
  exact h _

end Cert.Kernel.TableOk

end
-- ==== Proof.Spec.lean ====
/-
  The embedding lookup, as one function of the two arguments.

  The index array x has shape [4, 2048] and holds 32-bit words; the table e has shape [50257, 768].  The result has shape
  [4, 2048, 768]: entry (b, s, k) is the table's entry (row, k) where row is the word x(b, s).  A word is turned into a row
  number by reading it unsigned and clamping it into the table; for a word below 50257 that is the word's own value.
-/
import Idealize.ShloMosaic.Lib.ValueIdx

noncomputable section

namespace Cert.Proof.Spec

open Idealize.ShloMosaic Idealize.ShloMosaic.ValueIdx

/-- An index word as a row of the 50257-row table: its unsigned value, clamped into the table. -/
def rowOf (w : BitVec 32) : Fin 50257 := ⟨min w.toNat 50256, by omega⟩

/-- A word below the number of rows is its own row. -/
theorem rowOf_val (w : BitVec 32) (h : w.toNat < 50257) : (rowOf w).val = w.toNat := by
  unfold rowOf
  show min w.toNat 50256 = w.toNat
  omega

/-- The lookup: entry (b, s, k) of the result is entry (row of x(b, s), k) of the table. -/
def lookup {α : Type} (x : (⟨2, ![4, 2048]⟩ : Shape).Idx → BitVec 32) (e : (⟨2, ![50257, 768]⟩ : Shape).Idx → α) :
    (⟨3, ![4, 2048, 768]⟩ : Shape).Idx → α :=
  fun i => e (ix2 (rowOf (x (ix2 (i 0 : Fin 4) (i 1 : Fin 2048)))) (i 2 : Fin 768))

end Cert.Proof.Spec

end
-- ==== Proof.KernelRows.lean ====
/-
  What the idealized kernel leaves in its staged output array, and in the result after the final re-layout.

  The launch has 8192 grid points.  Point t fetches one table row, the row numbered by word t of the flat index table, as a
  block of shape [1, 1, 768]; the body copies the fetched block to the output block unchanged; the output block of point t
  is row t of the [8192, 1, 768] output array.  The output blocks tile that array, so after the run its row t is the table
  row numbered by word t.  The table is the [50257, 768] argument re-laid as [50257, 1, 768], the flat index table is the
  [4, 2048] index argument re-laid as [8192], and the result is the output array re-laid as [4, 2048, 768]; row-major
  positions are preserved by each re-layout, so result entry (b, s, k) is table entry (word (b, s), k).
-/
import proofs.«404095_j37864431682597_1_alg».proof.Proof.Gen.KernelIdeal.Frame
import proofs.«404095_j37864431682597_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Rows

open Cert.KernelIdeal Cert.KernelIdeal.Gen Cert.Proof.Spec
open Idealize.ShloMosaic Idealize.ShloMosaic.TcCoe Idealize.ShloMosaic.Tactic Idealize.SL.Sem Idealize.ShloMosaic.ValueIdx
open Idealize.ShloMosaic.StableHlo

variable {F : FTy → Type} [FloatOps F]

/-! ## The body: the output block is the fetched block -/

theorem origin : (![0, 0, 0] : Fin 3 → Nat) = fun _ => 0 := funext fun a => by fin_cases a <;> rfl

/-- The body's one store writes the whole output block with the loaded input block; read back, the output's staging
    buffer holds the input block. -/
theorem body_copies (c : Dev nD) (i : grid0.Coords) (arg2 : Memref sig .tc .vmem S1x1x768 .f32) (harg2 : arg2.IsWhole)
    (arg3 : Memref sig .tc .vmem S1x1x768 .f32) (harg3 : arg3.IsWhole) (x0 : Vec F S1x1x768 .f32) (xt0 : TbBuf0 (F := F) c tbM0_0) :
    out0_A_1 c i arg2 harg2 arg3 harg3 x0 xt0 = x0 := by
  unfold out0_A_1
  rw [View.read_writes_eq_canon _ _ _ (cover0_A_1 c i arg2 harg2 arg3 harg3 x0 xt0)]
  unfold kernelRun0_A
  dsimp only
  sl_unfold_words
  rw [View.canon_unit_zero origin]
  simp only [View.readAt_eq_ld, harg2.read_unread, View.ld_unit_zero (S := S1x1x768) origin]
  unfold k0_pay1
  exact shapeCast_self _ _

/-! ## Where the two windows' blocks sit, at any admissible contents of the index table -/

/-- Grid point t has coordinate t on the grid's one axis. -/
theorem coords_val (t : Fin grid0.N) : (grid0.coords t 0).val = t.val := by
  show t.val / grid0.stride 0 % grid0.bound 0 = t.val
  have h1 : grid0.stride 0 = 1 := by decide
  have h2 : grid0.bound 0 = 8192 := rfl
  have h3 : t.val < 8192 := Nat.lt_of_lt_of_eq t.isLt N_0
  rw [h1, h2, Nat.div_one, Nat.mod_eq_of_lt h3]

/-- The table position the input window's index map reads at a grid point: the point's coordinate. -/
theorem word_pos (i : grid0.Coords) :
    (Rect.unit (s := S8192) ![(Scalar.indexCast (BitVec.ofNat 32 (i 0).val)).toNat] S1.size (Facts₀.k0_off1_inb i)).emb
        (Shape.Idx.first (Facts₀.numel1_S1.symm ▸ Nat.one_pos)) = (ix1 (i 0 : Fin 8192) : S8192.Idx) := by
  funext d
  apply Fin.ext
  match d with
  | ⟨0, _⟩ =>
    show (Scalar.indexCast (BitVec.ofNat 32 (i 0).val)).toNat + 1 * (Shape.Idx.first (s := S1) (Facts₀.numel1_S1.symm ▸ Nat.one_pos) (0 : Fin 1)).val = (i 0).val
    have e0 : (Shape.Idx.first (s := S1) (Facts₀.numel1_S1.symm ▸ Nat.one_pos) (0 : Fin 1)).val = 0 := by
      have := (Shape.Idx.first (s := S1) (Facts₀.numel1_S1.symm ▸ Nat.one_pos) (0 : Fin 1)).isLt
      have e : S1.size (0 : Fin 1) = 1 := by decide
      omega
    have e1 : (Scalar.indexCast (BitVec.ofNat 32 (i 0).val)).toNat = (i 0).val := by
      show (BitVec.ofNat 32 (i 0).val).toNat = (i 0).val
      rw [BitVec.toNat_ofNat]
      have : (i 0).val < 8192 := (i 0).isLt
      omega
    rw [e0, e1]
    omega

/-- The input window's block index at a grid point: (the table word at the point's coordinate, 0, 0). -/
theorem in_index (pf : pre0.Contents (Elt F)) (i : grid0.Coords) :
    cc0_transform_0 Facts₀.k0_off1_inb Facts₀.numel1_S1 pf i
      = ![(pf 0 (ix1 (i 0 : Fin 8192)) : BitVec 32).toNat, 0, 0] := by
  exact congrArg (fun j : S8192.Idx => (![(pf 0 j : BitVec 32).toNat, 0, 0] : Fin 3 → Nat)) (word_pos i)

/-! ## The output array as one function, and each point's block of it -/

/-- The [8192, 1, 768] output array as a function of the flat index table and the re-laid table: row t is the table row
    numbered by word t. -/
def rowsOf {α : Type} (tb : S8192.Idx → BitVec 32) (e3 : S50257x1x768.Idx → α) : S8192x1x768.Idx → α :=
  fun i => e3 (ix3 (rowOf (tb (ix1 (i 0 : Fin 8192)))) (i 1 : Fin 1) (i 2 : Fin 768))

/-- At any admissible contents of the index table: the input block of point t, read at block position j, is the function
    `rowsOf` at position j of the output block of point t.  The input block starts at row (word t), the output block at
    row t; both blocks are one row, whole on the two trailing axes; admissibility bounds the word by the number of rows. -/
theorem block_read {α : Type} (a : (pcfg0 (F := F)).Adm) (t : Fin (cfg0 a).N) (tb : S8192.Idx → BitVec 32)
    (htb : a.1 0 = tb) (e3 : S50257x1x768.Idx → α) (j : S1x1x768.Idx) :
    e3 ((((cfg0 a).win 0).blk t).view.emb j) = rowsOf tb e3 ((((cfg0 a).win 1).blk t).view.emb j) := by
  subst htb
  unfold rowsOf
  have hj0 : (j 0).val = 0 := by
    have := (j 0).isLt
    have e : S1x1x768.size 0 = 1 := rfl
    omega
  have hc : (grid0.coords t 0).val < 8192 := (grid0.coords t 0).isLt
  have hin := in_index a.1 (grid0.coords t)
  have hin0 : cc0_transform_0 Facts₀.k0_off1_inb Facts₀.numel1_S1 a.1 (grid0.coords t) 0
      = (a.1 0 (ix1 (grid0.coords t 0 : Fin 8192)) : BitVec 32).toNat := by rw [hin]; rfl
  have hin1 : cc0_transform_0 Facts₀.k0_off1_inb Facts₀.numel1_S1 a.1 (grid0.coords t) 1 = 0 := by rw [hin]; rfl
  have hin2 : cc0_transform_0 Facts₀.k0_off1_inb Facts₀.numel1_S1 a.1 (grid0.coords t) 2 = 0 := by rw [hin]; rfl
  have hok : (cc0_transform_0 Facts₀.k0_off1_inb Facts₀.numel1_S1 a.1 (grid0.coords t) 0 + 1) * S1x1x768.size 0 ≤ S50257x1x768.size 0 :=
    (a.2 (grid0.coords t)).elim fun h _ => h 0
  have hlt : (a.1 0 (ix1 (grid0.coords t 0 : Fin 8192)) : BitVec 32).toNat < 50257 := by
    rw [hin0] at hok
    have e1 : S1x1x768.size 0 = 1 := rfl
    have e2 : S50257x1x768.size 0 = 50257 := rfl
    rw [e1, e2] at hok
    omega
  have hk : ((show S8192x1x768.Idx from (((cfg0 a).win 1).blk t).view.emb j) 0 : Fin 8192) = (grid0.coords t 0 : Fin 8192) := by
    apply Fin.ext
    show (BitVec.ofNat 32 (grid0.coords t 0).val).toNat * 1 + 1 * (j 0).val = (grid0.coords t 0).val
    rw [BitVec.toNat_ofNat]
    omega
  refine congrArg e3 (funext fun ax => Fin.ext ?_)
  match ax with
  | ⟨0, _⟩ =>
    show cc0_transform_0 Facts₀.k0_off1_inb Facts₀.numel1_S1 a.1 (grid0.coords t) 0 * 1 + 1 * (j 0).val
      = (rowOf (a.1 0 (ix1 ((show S8192x1x768.Idx from (((cfg0 a).win 1).blk t).view.emb j) 0 : Fin 8192)))).val
    rw [hk, rowOf_val _ hlt, hin0]
    omega
  | ⟨1, _⟩ =>
    show cc0_transform_0 Facts₀.k0_off1_inb Facts₀.numel1_S1 a.1 (grid0.coords t) 1 * 1 + 1 * (j 1).val
      = (0#32 : BitVec 32).toNat * 1 + 1 * (j 1).val
    rw [hin1]
    rfl
  | ⟨2, _⟩ =>
    show cc0_transform_0 Facts₀.k0_off1_inb Facts₀.numel1_S1 a.1 (grid0.coords t) 2 * 768 + 1 * (j 2).val
      = (0#32 : BitVec 32).toNat * 768 + 1 * (j 2).val
    rw [hin2]
    rfl

/-- Every position of the output array is in the output block of the point numbered by its row. -/
theorem covered (a : (pcfg0 (F := F)).Adm) (i : S8192x1x768.Idx) :
    ∃ t : Fin (cfg0 a).N, ((cfg0 a).win 1).flush t = true ∧ i ∈ (((cfg0 a).win 1).blk t).view.set := by
  have hi0 : (i 0).val < 8192 := (i 0).isLt
  have hi1 : (i 1).val = 0 := by
    have := (i 1).isLt
    have e : S8192x1x768.size 1 = 1 := rfl
    omega
  have ht : (i 0).val < grid0.N := Nat.lt_of_lt_of_eq hi0 N_0.symm
  refine ⟨⟨(i 0).val, ht⟩, flush0_1 a _, ?_⟩
  have e : i = (((cfg0 a).win 1).blk ⟨(i 0).val, ht⟩).view.emb (ix3 (0 : Fin 1) (0 : Fin 1) (i 2 : Fin 768)) := by
    funext ax
    apply Fin.ext
    match ax with
    | ⟨0, _⟩ =>
      show (i 0).val = (BitVec.ofNat 32 (grid0.coords ⟨(i 0).val, ht⟩ 0).val).toNat * 1 + 1 * 0
      rw [coords_val, BitVec.toNat_ofNat]
      show (i 0).val = (i 0).val % 2 ^ 32 * 1 + 1 * 0
      omega
    | ⟨1, _⟩ =>
      show (i 1).val = (0#32 : BitVec 32).toNat * 1 + 1 * 0
      rw [hi1]
      rfl
    | ⟨2, _⟩ =>
      show (i 2).val = (0#32 : BitVec 32).toNat * 768 + 1 * (i 2).val
      show (i 2).val = 0 * 768 + 1 * (i 2).val
      omega
  have hmem := View.emb_mem_set (((cfg0 a).win 1).blk ⟨(i 0).val, ht⟩).view (ix3 (0 : Fin 1) (0 : Fin 1) (i 2 : Fin 768))
  rwa [← e] at hmem

variable (m : (ℓ : Loc nD τ sig) → Buf (Elt F) ℓ) (ρ : Dev nD → PrngReg)

/-- What point t writes back is its block of the one function `rowsOf` of the index table and the re-laid table as
    the launch finds them. -/
theorem flushed_eq (hO : Ok m) (c : Dev nD) (t : Fin (cfgM m hO).N) :
    (dats m hO 0 c).flushed 1 t
      = (((cfgM m hO).win 1).blk t).view.read (Elt F) (rowsOf (tbl m 0) (V m c main_v1)) := by
  show ((cfgM m hO).win 1).cut ((cfgM m hO).grid.coords t) ((dats m hO 0 c).after 1 t) = _
  rw [after0_1]
  unfold outsAt0
  funext j
  show out0_A_1 c (grid0.coords t) (ms0_0 m hO t) (hs0_0 m hO t) (ms0_1 m hO t) (hs0_1 m hO t) (iblk m hO c 0 t) (tbl m 0) j
    = rowsOf (tbl m 0) (V m c main_v1) ((((cfgM m hO).win 1).blk t).view.emb j)
  refine (congrFun (body_copies c (grid0.coords t) (ms0_0 m hO t) (hs0_0 m hO t) (ms0_1 m hO t) (hs0_1 m hO t)
    (iblk m hO c 0 t) (tbl m 0)) j).trans ?_
  exact block_read (adm m hO) t (tbl m 0) rfl (V m c main_v1) j

/-- The output array after the run: row t is the table row numbered by word t. -/
theorem final (hO : Ok m) (c : Dev nD) :
    (dats m hO 0 c).arrAt 1 (cfgM m hO).N = rowsOf (tbl m 0) (V m c main_v1) :=
  (dats m hO 0 c).arrAt_eq_of_cover 1 _ (fun t _ => flushed_eq m hO c t) (covered (adm m hO))

end Cert.KernelIdeal.Rows

end
-- ==== Proof.KernelResult.lean ====
/-
  The idealized kernel's run, with its result named: under an index array whose words are all below 50257, every weakly
  fair execution ends with the [4, 2048, 768] result holding the lookup of the two arguments, and the arguments unchanged.

  The three re-layouts keep row-major positions.  Result position (b, s, k) is position (2048·b + s, 0, k) of the staged
  output array, whose row 2048·b + s is the table row numbered by word 2048·b + s of the flat index table, which is word
  (b, s) of the index argument; and position (row, 0, k) of the re-laid table is position (row, k) of the table argument.
-/
import proofs.«404095_j37864431682597_1_alg».proof.Proof.KernelRows
import proofs.«404095_j37864431682597_1_alg».proof.Proof.TableOkIdeal

set_option maxRecDepth 16384

noncomputable section

namespace Cert.KernelIdeal.Result

open Cert.KernelIdeal Cert.KernelIdeal.Gen Cert.KernelIdeal.Rows Cert.Proof.Spec
open Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ) (ρ : Dev nD → PrngReg)

/-- The table the launch reads is the table argument re-laid as [50257, 1, 768]. -/
theorem table3_eq (c : Dev nD) : (V m c main_v1 : S50257x1x768.Idx → Elt F .f32)
    = shapeCast S50257x1x768 (m ((c : Thread nD τ).loc main_arg1)) Facts₀.shapeCasts_S50257x768_S50257x1x768 := by
  show StableHlo.after (List.flatten [hostOps0]) (fun b => m (c, b)) (Proc.devRef .tc main_v1) = _
  simp only [hostOps0, List.flatten_cons, List.flatten_nil, List.append_nil]
  after_results
  rfl

/-- After the line that follows the launch, the result buffer holds the staged output array re-laid as [4, 2048, 768]. -/
theorem result_eq (hO : Ok m) (c : Dev nD) :
    (Pipeline.afterTail pcfgs (fun _ => adm m hO) (dats m hO) 0 (V0 m) [hostOps1] c main_v3 : S4x2048x768.Idx → Elt F .f32)
      = shapeCast S4x2048x768 (rowsOf (tbl m 0) (V m c main_v1)) Facts₀.shapeCasts_S8192x1x768_S4x2048x768 := by
  unfold Pipeline.afterTail
  show StableHlo.after hostOps1 _ (Proc.devRef .tc main_v3) = _
  after_results
  have hA := (Pipeline.withArrays_arr spec0 winFacts0.arr_inj c (V0 m c)
    (fun w => (dats m hO 0 c).arrAt w (cfgM m hO).N) 1).trans (final m hO c)
  funext i
  exact congrFun (congrArg (fun a => shapeCast S4x2048x768 a Facts₀.shapeCasts_S8192x1x768_S4x2048x768) hA) i

/-- Position by position, that re-laid array is the lookup of the two arguments. -/
theorem result_lookup (hO : Ok m) (c : Dev nD) :
    (Pipeline.afterTail pcfgs (fun _ => adm m hO) (dats m hO) 0 (V0 m) [hostOps1] c main_v3 : S4x2048x768.Idx → Elt F .f32)
      = lookup (m ((c : Thread nD τ).loc main_arg0)) (m ((c : Thread nD τ).loc main_arg1)) := by
  obtain rfl : c = 0 := Subsingleton.elim _ _
  rw [result_eq]
  funext i
  obtain ⟨b, s, k, rfl⟩ : ∃ (b : Fin 4) (s : Fin 2048) (k : Fin 768), i = ix3 b s k := ⟨i 0, i 1, i 2, eq_ix3 i⟩
  have hb := b.isLt
  have hs := s.isLt
  have hk := k.isLt
  have hr : b.val * 2048 + s.val < 8192 := by omega
  rw [shapeCast_apply _ _ (ix3 b s k) (ix3 (⟨b.val * 2048 + s.val, hr⟩ : Fin 8192) (0 : Fin 1) k)
    (by rw [Shape.rowMajor_val_three, Shape.rowMajor_val_three]
        show ((b.val * 2048 + s.val) * 1 + 0) * 768 + k.val = (b.val * 2048 + s.val) * 768 + k.val
        omega)]
  show V m 0 main_v1 (ix3 (rowOf (tbl m 0 (ix1 (⟨b.val * 2048 + s.val, hr⟩ : Fin 8192)))) (0 : Fin 1) k)
    = m (((0 : Dev nD) : Thread nD τ).loc main_arg1) (ix2 (rowOf (m (((0 : Dev nD) : Thread nD τ).loc main_arg0) (ix2 b s))) k)
  rw [table3_eq, TableOk.tbl_eq,
    shapeCast_apply _ _ (ix1 (⟨b.val * 2048 + s.val, hr⟩ : Fin 8192)) (ix2 b s)
      (by rw [Shape.rowMajor_val_two, Shape.rowMajor_val_one]
          show b.val * 2048 + s.val = b.val * 2048 + s.val
          rfl)]
  exact shapeCast_apply _ _ _ (ix2 (rowOf (m (((0 : Dev nD) : Thread nD τ).loc main_arg0) (ix2 b s))) k)
    (by rw [Shape.rowMajor_val_two, Shape.rowMajor_val_three]
        show (rowOf (m (((0 : Dev nD) : Thread nD τ).loc main_arg0) (ix2 b s))).val * 768 + k.val
          = ((rowOf (m (((0 : Dev nD) : Thread nD τ).loc main_arg0) (ix2 b s))).val * 1 + 0) * 768 + k.val
        omega)

/-- The kernel's run under the side condition: the result is the lookup, the arguments are unchanged. -/
theorem run (hO : Ok m) :
    θ_run defs (onTc (τ := τ) (main (F := F))) ⟨m, fun _ => 0, ρ⟩ fun r => ∀ c : Dev nD,
      r.2.mem ((c.tc : Thread nD τ).loc main_v3)
        = lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (by decide : main_v3 ∈ Pipeline.restRefs sig spec0)).trans (result_lookup m hO c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c)⟩)
    (run_main m ρ hO)

end Cert.KernelIdeal.Result

end
-- ==== Proof.RefRun.lean ====
/-
  The reference's run.

  The reference is a straight line of host operations: the outlined lookup function, inlined at its one call, and inside it
  the outlined select.  In order: indices below zero are shifted up by the number of rows 50257 (w ↦ w + 50257 where w < 0,
  w kept otherwise); the in-range test 0 ≤ w' ≤ 50256 of the shifted index; the gather of table rows at the shifted
  indices; and the choice, position by position, of the gathered entry where the test holds and of a fixed fill entry
  where it fails.  Every weakly fair execution terminates with the result buffer at that composed term of the two
  arguments, and the arguments unchanged.
-/
import proofs.«404095_j37864431682597_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem
open Idealize.ShloMosaic.StableHlo Facts₀

variable {F : FTy → Type} [FloatOps F]

/-- The reference's result as one term of the index array x and the table e. -/
def out (x : IVec S4x2048 32) (e : FVec F S50257x768 .f32) : FVec F S4x2048x768 .f32 :=
  let zero2 : IVec S4x2048 32 := broadcastInDim S4x2048 ![] bcast_S_S4x2048 (constantI S_ 32 0#32)
  let rows2 : IVec S4x2048 32 := broadcastInDim S4x2048 ![] bcast_S_S4x2048 (constantI S_ 32 50257#32)
  let shifted : IVec S4x2048 32 := select (cmpi .slt x zero2) (addi x rows2) x
  let idx : IVec S4x2048x1 32 := broadcastInDim S4x2048x1 ![0, 1] bcast_S4x2048_S4x2048x1_0_1 shifted
  let zero3 : IVec S4x2048x1 32 := broadcastInDim S4x2048x1 ![] bcast_S_S4x2048x1 (constantI S_ 32 0#32)
  let last3 : IVec S4x2048x1 32 := broadcastInDim S4x2048x1 ![0, 1, 2] bcast_S1x1x1_S4x2048x1_0_1_2
    (broadcastInDim S1x1x1 ![2] bcast_S1_S1x1x1_2 (constantI S1 32 50256#32))
  let inside : IVec S4x2048x1 1 := andi (cmpi .sge idx zero3) (cmpi .sle idx last3)
  let ok : IVec S4x2048 1 := Host.reduce IntOp.andi inside (constantI S_ 1 1#1) reducesTo_S4x2048x1_S4x2048_d2 h_S_
  let rowsAt : FVec F S4x2048x768 .f32 := Host.gather gather_S50257x768_S4x2048x1_S4x2048x768_2_0_n_n_0_2_1768 e idx
  select (broadcastInDim S4x2048x768 ![0, 1] bcast_S4x2048_S4x2048x768_0_1 ok) rowsAt
    (broadcastInDim S4x2048x768 ![] bcast_S_S4x2048x768 (constant S_ .f32 0x7FC00000#32))

/-- The program's 23 operations, in order: the lookup function's body at its one call, the select function's one
    operation at its call inside it. -/
abbrev ops : List (HloOp τ sig (Elt F)) :=
  [ TRef.nullary main_call0.c (constantI S_ 32 0#32),
    TRef.unary main_call0.c main_call0.v0 (broadcastInDim S4x2048 ![] bcast_S_S4x2048),
    TRef.binary (.of main_arg0) main_call0.v0 main_call0.v1 (cmpi .slt),
    TRef.nullary main_call0.c_0 (constantI S_ 32 50257#32),
    TRef.unary main_call0.c_0 main_call0.v2 (broadcastInDim S4x2048 ![] bcast_S_S4x2048),
    TRef.binary (.of main_arg0) main_call0.v2 main_call0.v3 addi,
    TRef.ternary main_call0.v1 main_call0.v3 (.of main_arg0) main_call0.call0.v0 select,
    TRef.unary main_call0.call0.v0 main_call0.v5 (broadcastInDim S4x2048x1 ![0, 1] bcast_S4x2048_S4x2048x1_0_1),
    TRef.nullary main_call0.c_1 (constantI S1 32 50256#32),
    TRef.nullary main_call0.c_2 (constantI S_ 32 0#32),
    TRef.unary main_call0.c_2 main_call0.v6 (broadcastInDim S4x2048x1 ![] bcast_S_S4x2048x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x2048x1 ![0, 1, 2] bcast_S1x1x1_S4x2048x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x2048x1_S4x2048_d2 h_S_),
    TRef.binary (.of main_arg1) main_call0.v5 main_call0.v13 (fun x i => Host.gather gather_S50257x768_S4x2048x1_S4x2048x768_2_0_n_n_0_2_1768 x i),
    TRef.unary main_call0.v12 main_call0.v14 (broadcastInDim S4x2048x768 ![0, 1] bcast_S4x2048_S4x2048x768_0_1),
    TRef.nullary main_call0.cst (constant S_ .f32 0x7FC00000#32),
    TRef.unary main_call0.cst main_call0.v15 (broadcastInDim S4x2048x768 ![] bcast_S_S4x2048x768),
    TRef.ternary main_call0.v14 main_call0.v13 main_call0.v15 main_call0.v16 select ]

set_option maxRecDepth 1024 in
/-- The program is that straight line: the two functions' bodies unfolded at their calls, sequencing reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 1600000 in
/-- The fold of the operations at the result buffer is the composed term: each operation's result is read where the next
    ones take their operands, the typed references being the literal buffers. -/
theorem out_eq (V : Valuation τ sig (Elt F)) :
    after ops V (main_v0 : DevRef τ sig) = out (V (main_arg0 : DevRef τ sig)) (V (main_arg1 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of the reference terminates
    with the result at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.LibGatherTable.lean ====
/-
  A gather of whole rows, or of whole columns, of a rank-two table, read at an index.

  The operation takes one start index per result row (or column), read as a signed integer and clamped into the table's
  range on the gathered axis; the other axis is copied whole. So result element (r, c) of a row gather is the table's
  element (clamp(idx r), c), and result element (c, r) of a column gather is the table's element (c, clamp(idx r)).
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- Any element of a list known to be a singleton is that singleton's element. -/
theorem getElem_of_eq_singleton {β : Type} {l : List β} {b : β} (h : l = [b]) (k : Nat) (hk : k < l.length) : l[k] = b := by
  subst h
  have : k = 0 := by simpa using hk
  subst this; rfl

/-- ROWS. Table [N, C], start indices the column [R, 1], result [R, C]: the gathered axis 0 is collapsed and start-indexed,
    axis 1 is the one offset axis, no batching, the index vector on axis 1 of the start indices. Element (r, c) of the
    result is the table's at (idx r clamped into [0, N - 1], c). -/
theorem gather_rows_apply {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ix2 r c) = x (ix2 ⟨min (idx (ix2 r 0)).toInt.toNat (N - 1), by omega⟩ c) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = min (idx (ix2 r 0)).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.zero_add, Nat.add_zero]
    rw [getElem_of_eq_singleton hoff]
    rfl

/-- COLUMNS. Table [C, N], start indices the column [R, 1], result [C, R]: the gathered axis 1 is collapsed and
    start-indexed, axis 0 is the one offset axis, no batching, the index vector on axis 1 of the start indices. Element
    (c, r) of the result is the table's at (c, idx r clamped into [0, N - 1]). -/
theorem gather_cols_apply {N C R w : Nat} (d : GatherDims ⟨2, ![C, N]⟩ ⟨2, ![R, 1]⟩ ⟨2, ![C, R]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![R, 1]⟩ w) (c : Fin C) (r : Fin R) (hN : 0 < N) :
    Host.gather d x idx (ix2 c r) = x (ix2 c ⟨min (idx (ix2 r 0)).toInt.toNat (N - 1), by omega⟩) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∈ d.sKept := by rw [GatherDims.mem_sKept, hcoll, hob]; simp
    have hm : (0 : Fin 2) ∉ d.startIndexMap := by rw [hsim]; simp
    show d.start (ix2 c r) idx 0 + d.batchCoord (ix2 c r) 0 + d.offCoord (ix2 c r) 0 = c.val
    rw [GatherDims.batchCoord_eq_zero _ _ _ (hb 0)]
    unfold GatherDims.start GatherDims.offCoord
    rw [dif_neg hm, dif_pos hk]
    simp only [Nat.zero_add, Nat.add_zero]
    rw [getElem_of_eq_singleton hoff]
    rfl
  | ⟨1, _⟩ =>
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 c r) idx 1 + d.batchCoord (ix2 c r) 1 + d.offCoord (ix2 c r) 1 = min (idx (ix2 r 0)).toInt.toNat (N - 1)
    rw [GatherDims.batchCoord_eq_zero _ _ _ (hb 1), GatherDims.offCoord_eq_zero _ _ _ hk]
    simp only [Nat.add_zero]
    unfold GatherDims.start
    rw [dif_pos hm]
    show min (idx _).toInt.toNat (N - d.sliceSizes 1) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [1] := by
        show Shape.kept _ d.offsetDims = [1]
        rw [hoff]; rfl
      rw [getElem_of_eq_singleton hbd]
      rfl
    | ⟨1, _⟩ =>
      unfold GatherDims.siIdx
      rw [dif_pos (by rw [hivd])]
      apply Fin.ext
      show List.idxOf (1 : Fin 2) d.startIndexMap = 0
      rw [hsim]; simp

end Idealize.ShloMosaic.GatherTable

end
-- ==== Proof.LibGatherGrid.lean ====
/-
  A gather of whole rows of a rank-two table at a rank-two GRID of start indices, read at an index.

  The table has shape [N, C]; the start indices have shape [A, B, 1], one per position (a, b) of the grid, the trailing
  unit axis holding the index vector; the result has shape [A, B, C].  The gathered axis 0 of the table is collapsed and
  start-indexed, axis 1 is copied whole as the result's one offset axis (axis 2), and there is no batching.  Each start
  index is read as a signed integer and clamped into the table's rows, so result element (a, b, c) is the table's element
  (clamp(idx (a, b, 0)), c).  This is the form an embedding lookup of a [A, B] index array in a [N, C] table takes; the
  case of a column [R, 1] of start indices is the rank-two lemma this file builds on.
-/
import proofs.«404095_j37864431682597_1_alg».proof.Proof.LibGatherTable

noncomputable section

namespace Idealize.ShloMosaic.GatherGrid

open Idealize.ShloMosaic Idealize.ShloMosaic.ValueIdx Idealize.ShloMosaic.GatherTable

variable {α : Type}

/-- An element of a list known to be a pair: the first at position 0, the second elsewhere. -/
theorem getElem_of_eq_pair {β : Type} {l : List β} {b0 b1 : β} (h : l = [b0, b1]) (k : Nat) (hk : k < l.length) :
    l[k] = if k = 0 then b0 else b1 := by
  subst h
  have : k = 0 ∨ k = 1 := by simp at hk; omega
  rcases this with rfl | rfl <;> rfl

/-- ROWS AT A GRID. Table [N, C], start indices [A, B, 1], result [A, B, C]: the gathered axis 0 collapsed and
    start-indexed, axis 1 the one offset axis (result axis 2), no batching, the index vector on axis 2 of the start
    indices.  Element (a, b, c) of the result is the table's at (idx (a, b, 0) clamped into [0, N - 1], c): the start
    index is read at the result's two batch coordinates, which are the grid position. -/
theorem gather_grid_rows_apply {N C A B w : Nat} (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![A, B, 1]⟩ w) (a : Fin A) (b : Fin B) (c : Fin C) (hN : 0 < N) :
    Host.gather d x idx (ix3 a b c) = x (ix2 ⟨min (idx (ix3 a b 0)).toInt.toNat (N - 1), by omega⟩ c) := by
  unfold Host.gather
  congr 1
  funext ax
  apply Fin.ext
  have hb : ∀ ax : Fin 2, ax ∉ d.operandBatchingDims := fun ax => by rw [hob]; exact List.not_mem_nil
  match ax with
  | ⟨0, _⟩ =>
    -- the gathered axis: the clamped start index, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix3 a b c) idx 0 + d.batchCoord (ix3 a b c) 0 + d.offCoord (ix3 a b c) 0 = min (idx (ix3 a b 0)).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- where the start index is read: the result's batch coordinates (a, b), then component 0 of the index vector
    funext b'
    have hbd : d.batchDims = [0, 1] := by
      show Shape.kept _ d.offsetDims = [0, 1]
      rw [hoff]; rfl
    have hsk : d.siKept = [0, 1] := by
      show (List.finRange 3).filter (fun q => decide (q.val ≠ d.indexVectorDim)) = [0, 1]
      rw [hivd]; rfl
    match b' with
    | ⟨0, h0⟩ =>
      unfold GatherDims.siIdx
      rw [dif_neg (by rw [hivd]; simp)]
      unfold GatherDims.siCoord
      apply Fin.ext
      simp only [Fin.val_cast]
      rw [getElem_of_eq_pair hbd]
      have e : List.idxOf (⟨0, h0⟩ : Fin 3) d.siKept = 0 := by rw [hsk]; rfl
      rw [if_pos e]
      rfl
    | ⟨1, h1⟩ =>
      unfold GatherDims.siIdx
      rw [dif_neg (by rw [hivd]; simp)]
      unfold GatherDims.siCoord
      apply Fin.ext
      simp only [Fin.val_cast]
      rw [getElem_of_eq_pair hbd]
      have e : List.idxOf (⟨1, h1⟩ : Fin 3) d.siKept = 1 := by rw [hsk]; rfl
      rw [if_neg (by rw [e]; decide)]
      rfl
    | ⟨2, _⟩ =>
      unfold GatherDims.siIdx
      rw [dif_pos (by rw [hivd])]
      apply Fin.ext
      show List.idxOf (0 : Fin 2) d.startIndexMap = 0
      rw [hsim]; simp
  | ⟨1, _⟩ =>
    -- the copied axis: the result's offset coordinate
    have hk : (1 : Fin 2) ∈ d.sKept := by rw [GatherDims.mem_sKept, hcoll, hob]; simp
    have hm : (1 : Fin 2) ∉ d.startIndexMap := by rw [hsim]; simp
    show d.start (ix3 a b c) idx 1 + d.batchCoord (ix3 a b c) 1 + d.offCoord (ix3 a b c) 1 = c.val
    rw [GatherDims.batchCoord_eq_zero _ _ _ (hb 1)]
    unfold GatherDims.start GatherDims.offCoord
    rw [dif_neg hm, dif_pos hk]
    simp only [Nat.zero_add, Nat.add_zero]
    rw [getElem_of_eq_singleton hoff]
    rfl

end Idealize.ShloMosaic.GatherGrid

end
-- ==== Proof.RefValue.lean ====
/-
  The reference's term, under an index array whose words are all below 50257, is the lookup.

  A word w below 50257 is non-negative as a signed integer, so the shift of negative indices leaves it alone; it passes the
  in-range test 0 ≤ w ≤ 50256, so the test's `and`-reduction over the unit index-vector axis is one at every position and
  the final choice takes the gathered entry everywhere, never the fill; and the gather's clamp of the start index, read
  signed, into [0, 50256] is the word's own unsigned value.  Hence entry (b, s, k) is table entry (word (b, s), k).
-/
import proofs.«404095_j37864431682597_1_alg».proof.Proof.RefRun
import proofs.«404095_j37864431682597_1_alg».proof.Proof.LibGatherGrid
import proofs.«404095_j37864431682597_1_alg».proof.Proof.Spec
import Idealize.ShloMosaic.Lib.Pipeline.Value
import Idealize.ShloMosaic.Lib.StableHlo.Predicate

noncomputable section

namespace Cert.ReferenceIdeal.RefValue

open Cert.ReferenceIdeal Cert.ReferenceIdeal.RefRun Cert.Proof.Spec
open Idealize.ShloMosaic Idealize.ShloMosaic.ValueIdx Idealize.ShloMosaic.StableHlo.Predicate Facts₀

variable {F : FTy → Type} [FloatOps F]

/-! ## Words -/

/-- A one-bit word that is not one is zero. -/
theorem bit_eq_zero_of_ne_one : ∀ b : BitVec 1, b ≠ 1#1 → b = 0#1 := by decide

/-- A word below 2³¹ is not below zero as a signed integer. -/
theorem not_neg (w : BitVec 32) (h : w.toNat < 2 ^ 31) : IntOp.cmpi .slt w 0#32 = 0#1 := by
  apply bit_eq_zero_of_ne_one
  intro e
  have := (slt_iff_toNat (a := w) (b := 0#32) h (by decide)).1 e
  have z : (0#32 : BitVec 32).toNat = 0 := rfl
  omega

/-- A word below 50257 passes the in-range test 0 ≤ w ≤ 50256. -/
theorem in_range (w : BitVec 32) (h : w.toNat < 50257) :
    IntOp.andi (IntOp.cmpi .sge w 0#32) (IntOp.cmpi .sle w 50256#32) = 1#1 := by
  have h31 : w.toNat < 2 ^ 31 := by omega
  have z : (0#32 : BitVec 32).toNat = 0 := rfl
  have l : (50256#32 : BitVec 32).toNat = 50256 := rfl
  rw [IntOp.andi_eq_one]
  exact ⟨(sge_iff_toNat (a := w) (b := 0#32) h31 (by decide)).2 (by omega),
    (sle_iff_toNat (a := w) (b := 50256#32) h31 (by decide)).2 (by omega)⟩

/-- A word below 2³¹, read signed and taken as a natural number, is its unsigned value. -/
theorem toInt_toNat (w : BitVec 32) (h : w.toNat < 2 ^ 31) : w.toInt.toNat = w.toNat := by
  rw [toInt_eq_toNat_of_lt h]
  exact Int.toNat_natCast _

/-! ## An `and`-reduction of ones -/

/-- A left fold by `and` from one over one-bit words that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    have e : IntOp.andi 1#1 1#1 = 1#1 := by decide
    rw [e]
    exact foldl_andi_ones f hf l

/-! ## The reference's term at a position -/

/-- Under the bound on the index words, entry (b, s, k) of the reference's term is table entry (row of x(b, s), k). -/
theorem out_apply (x : IVec S4x2048 32) (e : FVec F S50257x768 .f32) (hx : ∀ i, (x i).toNat < 50257)
    (b : Fin 4) (s : Fin 2048) (k : Fin 768) :
    out x e (ix3 b s k) = e (ix2 (rowOf (x (ix2 b s))) k) := by
  -- no index is negative: the shift leaves the index array as it is
  have hshift : select (cmpi .slt x (broadcastInDim S4x2048 ![] bcast_S_S4x2048 (constantI S_ 32 0#32)))
      (addi x (broadcastInDim S4x2048 ![] bcast_S_S4x2048 (constantI S_ 32 50257#32))) x = x := by
    funext i
    rw [select_apply]
    have hz : cmpi .slt x (broadcastInDim S4x2048 ![] bcast_S_S4x2048 (constantI S_ 32 0#32)) i = 0#1 := by
      show IntOp.cmpi .slt (x i) 0#32 = 0#1
      exact not_neg _ (by have := hx i; omega)
    rw [hz, select_zero]
  -- the start index at grid position (b, s) is the word x(b, s)
  have hidx : ∀ (b : Fin 4) (s : Fin 2048),
      broadcastInDim S4x2048x1 ![0, 1] bcast_S4x2048_S4x2048x1_0_1 x (ix3 b s (0 : Fin 1)) = x (ix2 b s) := fun b s =>
    broadcastInDim_apply _ _ x _ (ix2 b s) (fun a => by match a with | ⟨0, _⟩ => rfl | ⟨1, _⟩ => rfl)
  -- every start index passes the in-range test
  have hinside : ∀ n : S4x2048x1.Idx,
      andi (cmpi .sge (broadcastInDim S4x2048x1 ![0, 1] bcast_S4x2048_S4x2048x1_0_1 x)
          (broadcastInDim S4x2048x1 ![] bcast_S_S4x2048x1 (constantI S_ 32 0#32)))
        (cmpi .sle (broadcastInDim S4x2048x1 ![0, 1] bcast_S4x2048_S4x2048x1_0_1 x)
          (broadcastInDim S4x2048x1 ![0, 1, 2] bcast_S1x1x1_S4x2048x1_0_1_2
            (broadcastInDim S1x1x1 ![2] bcast_S1_S1x1x1_2 (constantI S1 32 50256#32)))) n = 1#1 := fun n => by
    show IntOp.andi (IntOp.cmpi .sge (x _) 0#32) (IntOp.cmpi .sle (x _) 50256#32) = 1#1
    exact in_range _ (hx _)
  unfold out
  dsimp only
  rw [hshift, select_apply]
  -- so the test's reduction is one at (b, s), and the choice takes the gathered entry
  have hm : broadcastInDim S4x2048x768 ![0, 1] bcast_S4x2048_S4x2048x768_0_1
      (Host.reduce IntOp.andi
        (andi (cmpi .sge (broadcastInDim S4x2048x1 ![0, 1] bcast_S4x2048_S4x2048x1_0_1 x)
            (broadcastInDim S4x2048x1 ![] bcast_S_S4x2048x1 (constantI S_ 32 0#32)))
          (cmpi .sle (broadcastInDim S4x2048x1 ![0, 1] bcast_S4x2048_S4x2048x1_0_1 x)
            (broadcastInDim S4x2048x1 ![0, 1, 2] bcast_S1x1x1_S4x2048x1_0_1_2
              (broadcastInDim S1x1x1 ![2] bcast_S1_S1x1x1_2 (constantI S1 32 50256#32)))))
        (constantI S_ 1 1#1) reducesTo_S4x2048x1_S4x2048_d2 h_S_) (ix3 b s k) = 1#1 := by
    rw [broadcastInDim_apply _ _ _ _ (ix2 b s) (fun a => by match a with | ⟨0, _⟩ => rfl | ⟨1, _⟩ => rfl),
      Host.reduce_eq_foldl]
    exact foldl_andi_ones _ hinside _
  rw [hm, select_one,
    GatherGrid.gather_grid_rows_apply gather_S50257x768_S4x2048x1_S4x2048x768_2_0_n_n_0_2_1768 rfl rfl rfl rfl rfl e _ b s k
      (by decide)]
  -- the clamped signed start index is the word's row
  refine congrArg e (funext fun a => Fin.ext ?_)
  match a with
  | ⟨0, _⟩ =>
    show min (broadcastInDim S4x2048x1 ![0, 1] bcast_S4x2048_S4x2048x1_0_1 x (ix3 b s (0 : Fin 1))).toInt.toNat (50257 - 1)
      = min (x (ix2 b s)).toNat 50256
    rw [hidx, toInt_toNat _ (by have := hx (ix2 b s); omega)]
  | ⟨1, _⟩ => rfl

/-- Under the bound on the index words the reference's term is the lookup. -/
theorem out_eq_lookup (x : IVec S4x2048 32) (e : FVec F S50257x768 .f32) (hx : ∀ i, (x i).toNat < 50257) :
    out x e = lookup x e := by
  funext i
  obtain ⟨b, s, k, rfl⟩ : ∃ (b : Fin 4) (s : Fin 2048) (k : Fin 768), i = ix3 b s k := ⟨i 0, i 1, i 2, eq_ix3 i⟩
  exact out_apply x e hx b s k

end Cert.ReferenceIdeal.RefValue

end
-- ==== Proof.lean ====
/-
  An embedding lookup: the kernel gathers table rows by a launch whose input block index is read from a prefetched index
  table; the reference is a gather with out-of-range handling.  Both compute, under the precondition, the one function
  (b, s, k) ↦ table (x(b, s), k) of the index array x : [4, 2048] and the table : [50257, 768].

  The precondition says every table entry is finite and every index word satisfies 0 ≤ w < 50257.  Only the second part is
  used: it makes each fetched block lie inside the table (the launch's side condition, so the kernel runs at all, at the
  word-level instance and at the ideal one), and on the reference's side it makes the shift of negative indices the
  identity, the in-range test true everywhere and the gather's clamp the identity.  No arithmetic is done on the table
  entries by either program, so nothing about the extended reals is needed: each result entry is a table entry.

  The kernel's run (KernelResult) names its result as the lookup; the reference's run (RefRun) names its result as its
  composed term, which is the lookup (RefValue).  The idealization rewrote nothing, so its ledger is empty.
-/
import proofs.«404095_j37864431682597_1_alg».proof.Defs
import proofs.«404095_j37864431682597_1_alg».proof.Proof.Gen.Kernel
import proofs.«404095_j37864431682597_1_alg».proof.Proof.Gen.Kernel.Skeleton
import proofs.«404095_j37864431682597_1_alg».proof.Proof.Gen.Kernel.Launch
import proofs.«404095_j37864431682597_1_alg».proof.Proof.Gen.Kernel.Points
import proofs.«404095_j37864431682597_1_alg».proof.Proof.Gen.Kernel.Frame
import proofs.«404095_j37864431682597_1_alg».proof.Proof.Gen.KernelIdeal
import proofs.«404095_j37864431682597_1_alg».proof.Proof.Gen.KernelIdeal.Skeleton
import proofs.«404095_j37864431682597_1_alg».proof.Proof.Gen.KernelIdeal.Launch
import proofs.«404095_j37864431682597_1_alg».proof.Proof.Gen.KernelIdeal.Points
import proofs.«404095_j37864431682597_1_alg».proof.Proof.Gen.KernelIdeal.Frame
import proofs.«404095_j37864431682597_1_alg».proof.Proof.Gen.ReferenceIdeal
import proofs.«404095_j37864431682597_1_alg».proof.Proof.Gen.Pre_finite_inputs
import proofs.«404095_j37864431682597_1_alg».proof.Proof.IndexRange
import proofs.«404095_j37864431682597_1_alg».proof.Proof.TableOkIdeal
import proofs.«404095_j37864431682597_1_alg».proof.Proof.TableOkBits
import proofs.«404095_j37864431682597_1_alg».proof.Proof.KernelResult
import proofs.«404095_j37864431682597_1_alg».proof.Proof.RefRun
import proofs.«404095_j37864431682597_1_alg».proof.Proof.RefValue
import Idealize.ShloMosaic.Adequacy
import Idealize.ShloMosaic.Init

noncomputable section

namespace Cert.Proof

open Idealize.ShloMosaic Idealize.SL.Sem

/-- The word-level kernel runs and keeps its arguments: the precondition bounds the index words, which is the launch's
    side condition. -/
theorem frame_kernel : Cert.frame_Kernel := fun m ρ h =>
  Cert.Kernel.Gen.frame m ρ (Cert.Kernel.TableOk.ok_of_words m fun i => IndexRange.word_lt _ _ (h 0) i)

/-- The same for the idealized kernel. -/
theorem frame_kernelIdeal : Cert.frame_KernelIdeal := fun m ρ h =>
  Cert.KernelIdeal.Gen.frame m ρ (Cert.KernelIdeal.TableOk.ok_of_words m fun i => IndexRange.word_lt _ _ (h 0) i)

/-- The reference is a straight line of host operations: it runs from any memory, its arguments unchanged. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the lookup of the (agreeing) arguments in their result. -/
theorem algebraic : Cert.algebraic_KernelIdeal_ReferenceIdeal := by
  intro m ρ m' ρ' hpre hagree
  have hw : ∀ i, (m (((0 : Dev Cert.KernelIdeal.nD).tc : Thread Cert.KernelIdeal.nD Cert.KernelIdeal.τ).loc Cert.KernelIdeal.main_arg0) i : BitVec 32).toNat < 50257 :=
    fun i => IndexRange.word_lt _ _ (hpre 0) i
  refine ⟨fun c => Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ (Cert.KernelIdeal.TableOk.ok_of_words m hw), ?_⟩
  refine (θ_run Cert.ReferenceIdeal.defs _ _).mono (fun _ h c => ⟨(h c).1.trans ?_, (h c).2⟩)
    (Cert.ReferenceIdeal.RefRun.run (F := Ideal) m' ρ')
  obtain rfl : c = 0 := Subsingleton.elim _ _
  rw [(hagree 0).1, (hagree 0).2]
  exact Cert.ReferenceIdeal.RefValue.out_eq_lookup _ _ hw

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
